-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x4096 : Shape := ⟨3, ![32, 64, 4096]⟩
abbrev S32x64x20x1024 : Shape := ⟨4, ![32, 64, 20, 1024]⟩
abbrev S32x64 : Shape := ⟨2, ![32, 64]⟩
abbrev S4096x1024 : Shape := ⟨2, ![4096, 1024]⟩
abbrev S1024 : Shape := ⟨1, ![1024]⟩
abbrev S1024x1024 : Shape := ⟨2, ![1024, 1024]⟩
abbrev S_ : Shape := ⟨0, ![]⟩

class Facts : Prop where
  bcast_S_S32x64x4096 : S_.BroadcastsInDim S32x64x4096 (![] : Fin 0 → Fin S32x64x4096.rank)
  reducesTo_S32x64x4096_S_d0_1_2 : S32x64x4096.ReducesTo [0, 1, 2] S_
  h_S_ : 0 < S_.numel
  bcast_S_S32x64x20x1024 : S_.BroadcastsInDim S32x64x20x1024 (![] : Fin 0 → Fin S32x64x20x1024.rank)
  reducesTo_S32x64x20x1024_S_d0_1_2_3 : S32x64x20x1024.ReducesTo [0, 1, 2, 3] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg5 : FVec F S1024x1024 .f32) (main_arg6 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S32x64x4096 .f32) (main_arg1 : FVec F S32x64x20x1024 .f32) (main_arg2 : IVec S32x64 32) (main_arg3 : FVec F S4096x1024 .f32) (main_arg4 : FVec F S1024 .f32) (main_arg5 : FVec F S1024x1024 .f32) (main_arg6 : FVec F S1024 .f32) : IVec S_ 1 :=
  let main_v0 : FVec F S32x64x4096 .f32 := Host.absf main_arg0
  let main_cst : FVec F S_ .f32 := constant S_ .f32 0x7F800000#32
  let main_v1 : FVec F S32x64x4096 .f32 := broadcastInDim S32x64x4096 ![] bcast_S_S32x64x4096 main_cst
  let main_v2 : IVec S32x64x4096 1 := cmpf .olt main_v0 main_v1
  let main_c : IVec S_ 1 := constantI S_ 1 1#1
  let main_v3 : IVec S_ 1 := (fun x v => Host.reduce IntOp.andi x v reducesTo_S32x64x4096_S_d0_1_2 h_S_) main_v2 main_c
  let main_v4 : FVec F S32x64x20x1024 .f32 := Host.absf main_arg1
  let main_cst_0 : FVec F S_ .f32 := constant S_ .f32 0x7F800000#32
  let main_v5 : FVec F S32x64x20x1024 .f32 := broadcastInDim S32x64x20x1024 ![] bcast_S_S32x64x20x1024 main_cst_0
  let main_v6 : IVec S32x64x20x1024 1 := cmpf .olt main_v4 main_v5
  let main_c_1 : IVec S_ 1 := constantI S_ 1 1#1
  let main_v7 : IVec S_ 1 := (fun x v => Host.reduce IntOp.andi x v reducesTo_S32x64x20x1024_S_d0_1_2_3 h_S_) main_v6 main_c_1
  let main_v8 : IVec S_ 1 := andi main_v3 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_v13 main_v16
-- ==== Kernel.lean ====
abbrev S32x64x4096 : Shape := ⟨3, ![32, 64, 4096]⟩
abbrev S32x64x20x1024 : Shape := ⟨4, ![32, 64, 20, 1024]⟩
abbrev S32x64 : Shape := ⟨2, ![32, 64]⟩
abbrev S4096x1024 : Shape := ⟨2, ![4096, 1024]⟩
abbrev S1024 : Shape := ⟨1, ![1024]⟩
abbrev S1024x1024 : Shape := ⟨2, ![1024, 1024]⟩
abbrev S2048x20x1024 : Shape := ⟨3, ![2048, 20, 1024]⟩
abbrev S2048x4096 : Shape := ⟨2, ![2048, 4096]⟩
abbrev S2048x1 : Shape := ⟨2, ![2048, 1]⟩
abbrev S1x1024 : Shape := ⟨2, ![1, 1024]⟩
abbrev S2048x1024 : Shape := ⟨2, ![2048, 1024]⟩
abbrev S64x20x1024 : Shape := ⟨3, ![64, 20, 1024]⟩
abbrev S64x4096 : Shape := ⟨2, ![64, 4096]⟩
abbrev S64x1 : Shape := ⟨2, ![64, 1]⟩
abbrev S64x1024 : Shape := ⟨2, ![64, 1024]⟩
abbrev S32x64x1024 : Shape := ⟨3, ![32, 64, 1024]⟩

abbrev nBuf : Space → Nat
  | .hbm => 19
  | .vmem => 14
  | .smem => 0
  | _ => 0

abbrev bufTy : (tb : Table) → Fin (tcTables nBuf tb) → BufTy
  | .hbm, ⟨0, _⟩ => ⟨S32x64x4096, .f32⟩
  | .hbm, ⟨1, _⟩ => ⟨S32x64x20x1024, .f32⟩
  | .hbm, ⟨2, _⟩ => ⟨S32x64, .i32⟩
  | .hbm, ⟨3, _⟩ => ⟨S4096x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S2048x20x1024, .f32⟩
  | .hbm, ⟨8, _⟩ => ⟨S2048x4096, .f32⟩
  | .hbm, ⟨9, _⟩ => ⟨S2048x1, .i32⟩
  | .hbm, ⟨10, _⟩ => ⟨S2048x1, .f32⟩
  | .hbm, ⟨11, _⟩ => ⟨S4096x1024, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S32x64x1024, .f32⟩
  | .hbm, ⟨18, _⟩ => ⟨S32x64x1024, .f32⟩
  | .local _ .vmem, ⟨0, _⟩ => ⟨S64x20x1024, .f32⟩
  | .local _ .vmem, ⟨1, _⟩ => ⟨S64x20x1024, .f32⟩
  | .local _ .vmem, ⟨2, _⟩ => ⟨S64x4096, .f32⟩
  | .local _ .vmem, ⟨3, _⟩ => ⟨S64x4096, .f32⟩
  | .local _ .vmem, ⟨4, _⟩ => ⟨S64x1, .f32⟩
  | .local _ .vmem, ⟨5, _⟩ => ⟨S64x1, .f32⟩
  | .local _ .vmem, ⟨6, _⟩ => ⟨S4096x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S32x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x20x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S32x64x20x1024_S2048x20x1024 : S32x64x20x1024.ShapeCasts S2048x20x1024
  shapeCasts_S32x64x4096_S2048x4096 : S32x64x4096.ShapeCasts S2048x4096
  shapeCasts_S32x64_S2048x1 : S32x64.ShapeCasts S2048x1
  bitsLt_bf16_f32 : FTy.bits .bf16 < FTy.bits .f32
  shapeCasts_S1024_S1x1024 : S1024.ShapeCasts S1x1024
  inb_S64x20x1024_S64x20x1024_0_0_0 : ∀ a, (![0, 0, 0] : Fin 3 → Nat) a + S64x20x1024.size a ≤ S64x20x1024.size a
  h_S64x20x1024 : 0 < S64x20x1024.numel
  shapeCasts_S64x20x1024_S64x20x1024 : S64x20x1024.ShapeCasts S64x20x1024
  reduces_S64x20x1024_S64x1024 : S64x20x1024.Reduces [1] S64x1024
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x1024 : S64x1.Broadcasts S64x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  shapeCasts_S2048x1024_S32x64x1024 : S2048x1024.ShapeCasts S32x64x1024
  dot_S64x1024_S1024x1024_S64x1024_1_0_0_1_n_n_wf : DotDims.WF S64x1024 S1024x1024 S64x1024 [1] [0] [0] [1] [] []
  dot_S64x4096_S4096x1024_S64x1024_1_0_0_1_n_n_wf : DotDims.WF S64x4096 S4096x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x20x1024.size a ≤ S2048x20x1024.size a
  hwx0_0 : ∀ i : grid0.Coords, EltTy.bits .f32 = 32 ∨ (Rect.block (s := S2048x20x1024) S64x20x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S2048x4096.size a
  hwx0_1 : ∀ i : grid0.Coords, EltTy.bits .f32 = 32 ∨ (Rect.block (s := S2048x4096) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S2048x1.size a
  hwx0_2 : ∀ i : grid0.Coords, EltTy.bits .f32 = 32 ∨ (Rect.block (s := S2048x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x1024.size a ≤ S2048x1024.size a
  hwx0_7 : ∀ i : grid0.Coords, EltTy.bits .f32 = 32 ∨ (Rect.block (s := S2048x1024) S64x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x1024.size a ≤ S2048x1024.size a
  hwx0_8 : ∀ i : grid0.Coords, EltTy.bits .f32 = 32 ∨ (Rect.block (s := S2048x1024) S64x1024.size (cc0_transform_8 i) (hinb0_8 i)).WholeWords (EltTy.packing .f32)

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S64x4096_S4096x1024_S64x1024_1_0_0_1_n_n : DotDims S64x4096 S4096x1024 S64x1024 where
  lhsContracting := [1]
  rhsContracting := [0]
  lhsNonContracting := [0]
  rhsNonContracting := [1]
  lhsBatch := []
  rhsBatch := []
  wf := dot_S64x4096_S4096x1024_S64x1024_1_0_0_1_n_n_wf

abbrev win0_0 : Pipeline.Window sig grid0 :=
  Pipeline.Window.ofSpec (Memref.whole main_v0) S64x20x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S64x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S64x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x64x4096 : Shape := ⟨3, ![32, 64, 4096]⟩
abbrev S32x64x20x1024 : Shape := ⟨4, ![32, 64, 20, 1024]⟩
abbrev S32x64 : Shape := ⟨2, ![32, 64]⟩
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S32x64x1024 : Shape := ⟨3, ![32, 64, 1024]⟩
abbrev S32x64x1 : Shape := ⟨3, ![32, 64, 1]⟩
abbrev S1x1x1024 : Shape := ⟨3, ![1, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S32x64x4096, .f32⟩
  | .hbm, ⟨1, _⟩ => ⟨S32x64x20x1024, .f32⟩
  | .hbm, ⟨2, _⟩ => ⟨S32x64, .i32⟩
  | .hbm, ⟨3, _⟩ => ⟨S4096x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S_, .f32⟩
  | .hbm, ⟨8, _⟩ => ⟨S32x64x1024, .f32⟩
  | .hbm, ⟨9, _⟩ => ⟨S32x64x1, .i32⟩
  | .hbm, ⟨10, _⟩ => ⟨S32x64x1, .f32⟩
  | .hbm, ⟨11, _⟩ => ⟨S32x64x1024, .f32⟩
  | .hbm, ⟨12, _⟩ => ⟨S32x64x1024, .f32⟩
  | .hbm, ⟨13, _⟩ => ⟨S32x64x1024, .f32⟩
  | .hbm, ⟨14, _⟩ => ⟨S1x1x1024, .f32⟩
  | .hbm, ⟨15, _⟩ => ⟨S32x64x1024, .f32⟩
  | .hbm, ⟨16, _⟩ => ⟨S32x64x1024, .f32⟩
  | .hbm, ⟨17, _⟩ => ⟨S32x64x1024, .f32⟩
  | .hbm, ⟨18, _⟩ => ⟨S1x1x1024, .f32⟩
  | .hbm, ⟨19, _⟩ => ⟨S32x64x1024, .f32⟩
  | .hbm, ⟨20, _⟩ => ⟨S32x64x1024, .f32⟩
  | _, _ => ⟨S32x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  reducesTo_S32x64x20x1024_S32x64x1024_d2 : S32x64x20x1024.ReducesTo [2] S32x64x1024
  h_S_ : 0 < S_.numel
  bcast_S32x64_S32x64x1_0_1 : S32x64.BroadcastsInDim S32x64x1 (![0, 1] : Fin 2 → Fin S32x64x1.rank)
  bcast_S32x64x1_S32x64x1024_0_1_2 : S32x64x1.BroadcastsInDim S32x64x1024 (![0, 1, 2] : Fin 3 → Fin S32x64x1024.rank)
  bcast_S1024_S1x1x1024_2 : S1024.BroadcastsInDim S1x1x1024 (![2] : Fin 1 → Fin S1x1x1024.rank)
  bcast_S1x1x1024_S32x64x1024_0_1_2 : S1x1x1024.BroadcastsInDim S32x64x1024 (![0, 1, 2] : Fin 3 → Fin S32x64x1024.rank)
  dot_S32x64x4096_S4096x1024_S32x64x1024_2_0_01_1_n_n_wf : DotDims.WF S32x64x4096 S4096x1024 S32x64x1024 [2] [0] [0, 1] [1] [] []
  dot_S32x64x1024_S1024x1024_S32x64x1024_2_0_01_1_n_n_wf : DotDims.WF S32x64x1024 S1024x1024 S32x64x1024 [2] [0] [0, 1] [1] [] []

variable [Facts₀]

def dot_S32x64x4096_S4096x1024_S32x64x1024_2_0_01_1_n_n : DotDims S32x64x4096 S4096x1024 S32x64x1024 where
  lhsContracting := [2]
  rhsContracting := [0]
  lhsNonContracting := [0, 1]
  rhsNonContracting := [1]
  lhsBatch := []
  rhsBatch := []
  wf := dot_S32x64x4096_S4096x1024_S32x64x1024_2_0_01_1_n_n_wf
def dot_S32x64x1024_S1024x1024_S32x64x1024_2_0_01_1_n_n : DotDims S32x64x1024 S1024x1024 S32x64x1024 where
  lhsContracting := [2]
  rhsContracting := [0]
  lhsNonContracting := [0, 1]
  rhsNonContracting := [1]
  lhsBatch := []
  rhsBatch := []
  wf := dot_S32x64x1024_S1024x1024_S32x64x1024_2_0_01_1_n_n_wf

class Facts : Prop extends Facts₀ where

variable [Facts]
-- ==== Proof.Spec.lean ====
/-
  What both programs compute, as two whole-array functions of the seven argument arrays, at the ideal
  instance (every float an extended real, every operation exact).

  For a region (b, n) the phrase tokens are averaged: the 20 token vectors are summed and the sum is divided
  by the region's phrase length (an integer, read exactly). The averaged vector is then mapped through the
  language weights and bias; the region's visual vector is mapped through the visual weights and bias:

    languageMap (b, n, k) = (Σ_h  (Σ_p language (b, n, p, h)) / length (b, n)  ·  Wl (h, k)) + bl k
    visualMap   (b, n, k) = (Σ_f  vision (b, n, f) · Wv (f, k)) + bv k

  Nothing here needs the inputs to be finite: both programs form exactly these nested sums, in the
  commutative monoid of the extended reals, and divide by the same (possibly zero) length with the same
  total division.
-/
import Idealize.ShloMosaic.PureOps.Ideal
import Idealize.ShloMosaic.PureOps.Ideal.Laws
import Idealize.ShloMosaic.Lib.ValueIdx

noncomputable section

namespace Cert.RegionPool

open Idealize.ShloMosaic Idealize.ShloMosaic.ValueIdx

/-- Entry h of region (b, n)'s averaged phrase vector: the sum of its 20 token entries over its length. -/
def pooled (language : FVec Ideal ⟨4, ![32, 64, 20, 1024]⟩ .f32) (lengths : IVec ⟨2, ![32, 64]⟩ 32)
    (b : Fin 32) (n : Fin 64) (h : Fin 1024) : EReal :=
  Ideal.div (∑ p : Fin 20, language (ix4 b n p h)) (FloatOps.sitofp (F := Ideal) .f32 (lengths (ix2 b n)))

/-- The language projection of every region's averaged phrase vector. -/
def languageMap (language : FVec Ideal ⟨4, ![32, 64, 20, 1024]⟩ .f32) (lengths : IVec ⟨2, ![32, 64]⟩ 32)
    (Wl : FVec Ideal ⟨2, ![1024, 1024]⟩ .f32) (bl : FVec Ideal ⟨1, ![1024]⟩ .f32) : FVec Ideal ⟨3, ![32, 64, 1024]⟩ .f32 :=
  fun i => (∑ h : Fin 1024, pooled language lengths (i 0) (i 1) h * Wl (ix2 h (i 2))) + bl (ix1 (i 2))

/-- The visual projection of every region's feature vector. -/
def visualMap (vision : FVec Ideal ⟨3, ![32, 64, 4096]⟩ .f32)
    (Wv : FVec Ideal ⟨2, ![4096, 1024]⟩ .f32) (bv : FVec Ideal ⟨1, ![1024]⟩ .f32) : FVec Ideal ⟨3, ![32, 64, 1024]⟩ .f32 :=
  fun i => (∑ f : Fin 4096, vision (ix3 (i 0) (i 1) f) * Wv (ix2 f (i 2))) + bv (ix1 (i 2))

/-- The same two functions over the regions FLATTENED to one axis of 2048 rows (row 64·b + n is region (b, n)),
    as the kernel's grid sees them: the token array [2048, 20, 1024], the lengths already converted to floats as a
    column [2048, 1], the biases as rows [1, 1024]. -/
def languageRows (tokens : FVec Ideal ⟨3, ![2048, 20, 1024]⟩ .f32) (len : FVec Ideal ⟨2, ![2048, 1]⟩ .f32)
    (Wl : FVec Ideal ⟨2, ![1024, 1024]⟩ .bf16) (bl : FVec Ideal ⟨2, ![1, 1024]⟩ .f32) : FVec Ideal ⟨2, ![2048, 1024]⟩ .f32 :=
  fun j => (∑ h : Fin 1024, Ideal.div (∑ p : Fin 20, tokens (ix3 (j 0) p h)) (len (ix2 (j 0) (0 : Fin 1))) * Wl (ix2 h (j 1)))
    + bl (ix2 (0 : Fin 1) (j 1))

def visualRows (feat : FVec Ideal ⟨2, ![2048, 4096]⟩ .f32)
    (Wv : FVec Ideal ⟨2, ![4096, 1024]⟩ .bf16) (bv : FVec Ideal ⟨2, ![1, 1024]⟩ .f32) : FVec Ideal ⟨2, ![2048, 1024]⟩ .f32 :=
  fun j => (∑ f : Fin 4096, feat (ix2 (j 0) f) * Wv (ix2 f (j 1))) + bv (ix2 (0 : Fin 1) (j 1))

end Cert.RegionPool

end
-- ==== Proof.RefSide.lean ====
/-
  The reference program's two results, read index by index at the ideal instance, are the specification's
  two functions of the arguments.

  The reference sums the token axis (from a zero initial value, which vanishes), divides by the phrase length
  broadcast along the hidden axis, contracts the hidden axis against the language weights and adds the bias
  broadcast over the regions; the visual map is one contraction of the feature axis plus its bias. Each stage
  is read at an index by the generated read-at-an-index lemmas; what is left is to recognise the composed
  index functions as the coordinates (b, n, p, h), (b, n), (h, k), k.
-/
import proofs.«105562_j9208409882645_1_alg».proof.Proof.Gen.ReferenceIdeal.Run
import proofs.«105562_j9208409882645_1_alg».proof.Proof.Gen.ReferenceIdeal.Read
import proofs.«105562_j9208409882645_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.RegionPool

/-- The visual result: at (b, n, k) the sum over the feature axis of vision (b, n, f) · Wv (f, k), plus bv k. -/
theorem visual_eq (x0 : FVec Ideal S32x64x4096 .f32) (x3 : FVec Ideal S4096x1024 .f32) (x4 : FVec Ideal S1024 .f32) :
    val_main_v8 (F := Ideal) x0 x3 x4 = visualMap x0 x3 x4 := by
  funext i
  have el : ∀ k, lidx_main_v5 i k = ix3 (i 0) (i 1) k := fun k => funext fun a => Fin.ext (by
    match a with | ⟨0, _⟩ => rfl | ⟨1, _⟩ => rfl | ⟨2, _⟩ => rfl)
  have er : ∀ k, ridx_main_v5 i k = ix2 k (i 2) := fun k => funext fun a => Fin.ext (by
    match a with | ⟨0, _⟩ => rfl | ⟨1, _⟩ => rfl)
  have eb : idx_main_v6 (idx_main_v7 i) = ix1 (i 2) := funext fun a => Fin.ext (by
    match a with | ⟨0, _⟩ => rfl)
  rw [val_main_v8_apply, val_main_v5_apply, val_main_v7_apply, val_main_v6_apply, Ideal.addf_def, eb]
  simp only [el, er]
  rfl

/-- The language result: at (b, n, k) the sum over the hidden axis of the region's averaged token entry times
    Wl (h, k), plus bl k. -/
theorem language_eq (x1 : FVec Ideal S32x64x20x1024 .f32) (x2 : IVec S32x64 32) (x5 : FVec Ideal S1024x1024 .f32)
    (x6 : FVec Ideal S1024 .f32) :
    val_main_v12 (F := Ideal) x1 x2 x5 x6 = languageMap x1 x2 x5 x6 := by
  funext i
  have eb : idx_main_v10 (idx_main_v11 i) = ix1 (i 2) := funext fun a => Fin.ext (by
    match a with | ⟨0, _⟩ => rfl)
  rw [val_main_v12_apply, val_main_v9_apply, val_main_v11_apply, val_main_v10_apply, Ideal.addf_def, eb]
  unfold languageMap
  refine congrArg (· + x6 (ix1 (i 2))) (Finset.sum_congr rfl fun k _ => ?_)
  have et : ∀ p, idx_main_v0 (lidx_main_v9 i k) p = ix4 (i 0) (i 1) p k := fun p => funext fun a => Fin.ext (by
    match a with | ⟨0, _⟩ => rfl | ⟨1, _⟩ => rfl | ⟨2, _⟩ => rfl | ⟨3, _⟩ => rfl)
  have en : idx_main_v1 (idx_main_v3 (lidx_main_v9 i k)) = ix2 (i 0) (i 1) := funext fun a => Fin.ext (by
    match a with | ⟨0, _⟩ => rfl | ⟨1, _⟩ => rfl)
  have er : ridx_main_v9 i k = ix2 k (i 2) := funext fun a => Fin.ext (by
    match a with | ⟨0, _⟩ => rfl | ⟨1, _⟩ => rfl)
  rw [val_main_v4_apply, val_main_v0_apply, val_main_v3_apply, val_main_v2_apply, val_main_v1_apply, val_main_cst_apply,
    Ideal.hostDivf_def, Ideal.ofBits_def, Ideal.ofBits_zero_f32, zero_add, en, er]
  simp only [et]
  rfl

end Cert.ReferenceIdeal.RefValue

end
-- ==== Proof.KernelPay.lean ====
/-
  What the kernel body stores, at one entry of its output blocks, as a function of the blocks it loads.

  The body works on a tile of 64 regions. For the language output it sums each region's 20 token vectors, divides
  by the region's length (a column, broadcast along the hidden axis), changes format (the identity on exact
  values), multiplies the [64, 1024] result into the [1024, 1024] weights starting from a zero accumulator, and
  adds the bias row broadcast over the 64 regions. So entry (r, k) of the stored tile is

      (Σ_h  (Σ_p tokens (r, p, h)) / len (r, 0) · Wl (h, k)) + bl (0, k),

  and likewise entry (r, k) of the visual tile is (Σ_f feat (r, f) · Wv (f, k)) + bv (0, k).
-/
import proofs.«105562_j9208409882645_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.ValueIdx

/-! ## The two products' operand indices -/

theorem lhs_lang_0 (i : S64x1024.Idx) (q : dot_S64x1024_S1024x1024_S64x1024_1_0_0_1_n_n.contr.Idx) :
    (dot_S64x1024_S1024x1024_S64x1024_1_0_0_1_n_n.lhsIdx i q 0).val = (i 0).val := by
  unfold DotDims.lhsIdx
  rw [dif_neg (show ¬(0 : Fin S64x1024.rank) ∈ dot_S64x1024_S1024x1024_S64x1024_1_0_0_1_n_n.lhsBatch by decide), dif_pos (show (0 : Fin S64x1024.rank) ∈ dot_S64x1024_S1024x1024_S64x1024_1_0_0_1_n_n.lhsNonContracting by decide)]
  rfl
theorem lhs_lang_1 (i : S64x1024.Idx) (q : dot_S64x1024_S1024x1024_S64x1024_1_0_0_1_n_n.contr.Idx) :
    (dot_S64x1024_S1024x1024_S64x1024_1_0_0_1_n_n.lhsIdx i q 1).val = (q ⟨0, by decide⟩).val :=
  dot_S64x1024_S1024x1024_S64x1024_1_0_0_1_n_n.lhsIdx_val_of_single rfl i q
theorem rhs_lang_0 (i : S64x1024.Idx) (q : dot_S64x1024_S1024x1024_S64x1024_1_0_0_1_n_n.contr.Idx) :
    (dot_S64x1024_S1024x1024_S64x1024_1_0_0_1_n_n.rhsIdx i q 0).val = (q ⟨0, by decide⟩).val :=
  dot_S64x1024_S1024x1024_S64x1024_1_0_0_1_n_n.rhsIdx_val_of_single rfl i q
theorem rhs_lang_1 (i : S64x1024.Idx) (q : dot_S64x1024_S1024x1024_S64x1024_1_0_0_1_n_n.contr.Idx) :
    (dot_S64x1024_S1024x1024_S64x1024_1_0_0_1_n_n.rhsIdx i q 1).val = (i 1).val := by
  unfold DotDims.rhsIdx
  rw [dif_neg (show ¬(1 : Fin S1024x1024.rank) ∈ dot_S64x1024_S1024x1024_S64x1024_1_0_0_1_n_n.rhsBatch by decide), dif_pos (show (1 : Fin S1024x1024.rank) ∈ dot_S64x1024_S1024x1024_S64x1024_1_0_0_1_n_n.rhsNonContracting by decide)]
  rfl

theorem lhs_vis_0 (i : S64x1024.Idx) (q : dot_S64x4096_S4096x1024_S64x1024_1_0_0_1_n_n.contr.Idx) :
    (dot_S64x4096_S4096x1024_S64x1024_1_0_0_1_n_n.lhsIdx i q 0).val = (i 0).val := by
  unfold DotDims.lhsIdx
  rw [dif_neg (show ¬(0 : Fin S64x4096.rank) ∈ dot_S64x4096_S4096x1024_S64x1024_1_0_0_1_n_n.lhsBatch by decide), dif_pos (show (0 : Fin S64x4096.rank) ∈ dot_S64x4096_S4096x1024_S64x1024_1_0_0_1_n_n.lhsNonContracting by decide)]
  rfl
theorem lhs_vis_1 (i : S64x1024.Idx) (q : dot_S64x4096_S4096x1024_S64x1024_1_0_0_1_n_n.contr.Idx) :
    (dot_S64x4096_S4096x1024_S64x1024_1_0_0_1_n_n.lhsIdx i q 1).val = (q ⟨0, by decide⟩).val :=
  dot_S64x4096_S4096x1024_S64x1024_1_0_0_1_n_n.lhsIdx_val_of_single rfl i q
theorem rhs_vis_0 (i : S64x1024.Idx) (q : dot_S64x4096_S4096x1024_S64x1024_1_0_0_1_n_n.contr.Idx) :
    (dot_S64x4096_S4096x1024_S64x1024_1_0_0_1_n_n.rhsIdx i q 0).val = (q ⟨0, by decide⟩).val :=
  dot_S64x4096_S4096x1024_S64x1024_1_0_0_1_n_n.rhsIdx_val_of_single rfl i q
theorem rhs_vis_1 (i : S64x1024.Idx) (q : dot_S64x4096_S4096x1024_S64x1024_1_0_0_1_n_n.contr.Idx) :
    (dot_S64x4096_S4096x1024_S64x1024_1_0_0_1_n_n.rhsIdx i q 1).val = (i 1).val := by
  unfold DotDims.rhsIdx
  rw [dif_neg (show ¬(1 : Fin S4096x1024.rank) ∈ dot_S64x4096_S4096x1024_S64x1024_1_0_0_1_n_n.rhsBatch by decide), dif_pos (show (1 : Fin S4096x1024.rank) ∈ dot_S64x4096_S4096x1024_S64x1024_1_0_0_1_n_n.rhsNonContracting by decide)]
  rfl

/-! ## The bias row over the tile, the length column along the hidden axis, the token sum -/

theorem biasRow_apply (v : FVec Ideal S1x1024 .f32) (r : Fin 64) (k : Fin 1024) :
    broadcastTo S64x1024 v broadcasts_S1x1024_S64x1024 (ix2 r k) = v (ix2 (0 : Fin 1) k) :=
  broadcastTo_apply v broadcasts_S1x1024_S64x1024 (ix2 r k) (ix2 (0 : Fin 1) k) (fun a => match a with
    | ⟨0, _⟩ => by show 0 = if (1 : Nat) = 1 then 0 else r.val; rw [if_pos rfl]
    | ⟨1, _⟩ => by show k.val = if (1024 : Nat) = 1 then 0 else k.val; rw [if_neg (by decide)])

theorem lenCol_apply (v : FVec Ideal S64x1 .f32) (r : Fin 64) (h : Fin 1024) :
    broadcastTo S64x1024 v broadcasts_S64x1_S64x1024 (ix2 r h) = v (ix2 r (0 : Fin 1)) :=
  broadcastTo_apply v broadcasts_S64x1_S64x1024 (ix2 r h) (ix2 r (0 : Fin 1)) (fun a => match a with
    | ⟨0, _⟩ => by show r.val = if (64 : Nat) = 1 then 0 else r.val; rw [if_neg (by decide)]
    | ⟨1, _⟩ => by show 0 = if (1 : Nat) = 1 then 0 else h.val; rw [if_pos rfl])

theorem tokenSum_apply (v : FVec Ideal S64x20x1024 .f32) (hφ : FKind.Formats .f32)
    (hacc : (0x00000000#32 : BitVec 32) = 0x00000000#32) (r : Fin 64) (h : Fin 1024) :
    multiReduction .add [1] S64x1024 v 0x00000000#32 reduces_S64x20x1024_S64x1024 hφ hacc (ix2 r h)
      = ∑ p : Fin 20, v (ix3 r p h) := by
  refine (Ideal.multiReduction_add_single v 0x00000000#32 reduces_S64x20x1024_S64x1024 hφ hacc (ix2 r h)).trans ?_
  refine Finset.sum_congr rfl fun p _ => congrArg v (funext fun a => Fin.ext ?_)
  match a with
  | ⟨0, _⟩ => rfl
  | ⟨1, _⟩ => rfl
  | ⟨2, _⟩ => rfl

/-! ## The stored tiles -/

/-- Entry (r, k) of the language tile. -/
theorem langTile_apply (v0 : FVec Ideal S64x20x1024 .f32) (v3 : FVec Ideal S64x1 .f32) (v8 : FVec Ideal S1024x1024 .bf16)
    (v11 : FVec Ideal S1x1024 .f32) (r : Fin 64) (k : Fin 1024) :
    k0_pay1 (F := Ideal) v0 v3 v8 v11 (ix2 r k)
      = (∑ h : Fin 1024, Ideal.div (∑ p : Fin 20, v0 (ix3 r p h)) (v3 (ix2 r (0 : Fin 1))) * v8 (ix2 h k)) + v11 (ix2 (0 : Fin 1) k) := by
  unfold k0_pay1
  simp only [shapeCast_self]
  rw [addf_apply, biasRow_apply]
  refine congrArg (· + v11 (ix2 (0 : Fin 1) k)) ?_
  refine (Ideal.matmul_constant_zero_apply dot_S64x1024_S1024x1024_S64x1024_1_0_0_1_n_n none _ _ (ix2 r k)).trans ?_
  rw [← Equiv.sum_comp (contrEquiv1 dot_S64x1024_S1024x1024_S64x1024_1_0_0_1_n_n 1024 rfl rfl).symm]
  refine Finset.sum_congr rfl fun h _ => ?_
  have hk := contrEquiv1_symm_val dot_S64x1024_S1024x1024_S64x1024_1_0_0_1_n_n 1024 rfl rfl h
  have el : dot_S64x1024_S1024x1024_S64x1024_1_0_0_1_n_n.lhsIdx (ix2 r k) ((contrEquiv1 dot_S64x1024_S1024x1024_S64x1024_1_0_0_1_n_n 1024 rfl rfl).symm h) = ix2 r h := funext fun a => Fin.ext (by
    match a with
    | ⟨0, _⟩ => exact lhs_lang_0 _ _
    | ⟨1, _⟩ => exact (lhs_lang_1 _ _).trans hk)
  have er : dot_S64x1024_S1024x1024_S64x1024_1_0_0_1_n_n.rhsIdx (ix2 r k) ((contrEquiv1 dot_S64x1024_S1024x1024_S64x1024_1_0_0_1_n_n 1024 rfl rfl).symm h) = ix2 h k := funext fun a => Fin.ext (by
    match a with
    | ⟨0, _⟩ => exact (rhs_lang_0 _ _).trans hk
    | ⟨1, _⟩ => exact rhs_lang_1 _ _)
  rw [el, er, truncf_apply, divf_apply, tokenSum_apply, lenCol_apply]

/-- Entry (r, k) of the visual tile. -/
theorem visTile_apply (v16 : FVec Ideal S64x4096 .f32) (v19 : FVec Ideal S4096x1024 .bf16) (v22 : FVec Ideal S1x1024 .f32)
    (r : Fin 64) (k : Fin 1024) :
    k0_pay2 (F := Ideal) v16 v19 v22 (ix2 r k)
      = (∑ f : Fin 4096, v16 (ix2 r f) * v19 (ix2 f k)) + v22 (ix2 (0 : Fin 1) k) := by
  unfold k0_pay2
  simp only [shapeCast_self]
  rw [addf_apply, biasRow_apply]
  refine congrArg (· + v22 (ix2 (0 : Fin 1) k)) ?_
  refine (Ideal.matmul_constant_zero_apply dot_S64x4096_S4096x1024_S64x1024_1_0_0_1_n_n none _ _ (ix2 r k)).trans ?_
  rw [← Equiv.sum_comp (contrEquiv1 dot_S64x4096_S4096x1024_S64x1024_1_0_0_1_n_n 4096 rfl rfl).symm]
  refine Finset.sum_congr rfl fun f _ => ?_
  have hk := contrEquiv1_symm_val dot_S64x4096_S4096x1024_S64x1024_1_0_0_1_n_n 4096 rfl rfl f
  have el : dot_S64x4096_S4096x1024_S64x1024_1_0_0_1_n_n.lhsIdx (ix2 r k) ((contrEquiv1 dot_S64x4096_S4096x1024_S64x1024_1_0_0_1_n_n 4096 rfl rfl).symm f) = ix2 r f := funext fun a => Fin.ext (by
    match a with
    | ⟨0, _⟩ => exact lhs_vis_0 _ _
    | ⟨1, _⟩ => exact (lhs_vis_1 _ _).trans hk)
  have er : dot_S64x4096_S4096x1024_S64x1024_1_0_0_1_n_n.rhsIdx (ix2 r k) ((contrEquiv1 dot_S64x4096_S4096x1024_S64x1024_1_0_0_1_n_n 4096 rfl rfl).symm f) = ix2 f k := funext fun a => Fin.ext (by
    match a with
    | ⟨0, _⟩ => exact (rhs_vis_0 _ _).trans hk
    | ⟨1, _⟩ => exact rhs_vis_1 _ _)
  rw [el, er, truncf_apply]

end Cert.KernelIdeal.Pay

end
-- ==== Proof.Flatten.lean ====
/-
  Flattening the regions and un-flattening the result changes nothing.

  The kernel's program reshapes the (32, 64) grid of regions to one axis of 2048 rows before the call and
  reshapes the two [2048, 1024] results back to [32, 64, 1024] after it. A reshape keeps row-major order, so
  row 64·b + n of a flattened array is region (b, n) of the original: entry (64·b + n, p, h) of the flattened
  tokens is token entry (b, n, p, h), entry (64·b + n, 0) of the length column is length (b, n), and entry
  (b, n, k) of a reshaped result is entry (64·b + n, k) of the [2048, 1024] array. The weights only change
  format (the identity on exact values) and the biases gain a unit axis in front. Hence the flattened-rows
  functions, reshaped back, are the specification's two functions of the original arrays.
-/
import proofs.«105562_j9208409882645_1_alg».proof.Proof.Spec
import Idealize.ShloMosaic.Lib.Pipeline.Value

noncomputable section

namespace Cert.RegionPool

open Idealize.ShloMosaic Idealize.ShloMosaic.ValueIdx

/-- Region (b, n)'s row in the flattened arrays. -/
def row (b : Fin 32) (n : Fin 64) : Fin 2048 := ⟨b.val * 64 + n.val, by omega⟩

theorem languageRows_apply (tokens : FVec Ideal ⟨3, ![2048, 20, 1024]⟩ .f32) (len : FVec Ideal ⟨2, ![2048, 1]⟩ .f32)
    (Wl : FVec Ideal ⟨2, ![1024, 1024]⟩ .bf16) (bl : FVec Ideal ⟨2, ![1, 1024]⟩ .f32) (ρ : Fin 2048) (k : Fin 1024) :
    languageRows tokens len Wl bl (ix2 ρ k)
      = (∑ h : Fin 1024, Ideal.div (∑ p : Fin 20, tokens (ix3 ρ p h)) (len (ix2 ρ (0 : Fin 1))) * Wl (ix2 h k))
        + bl (ix2 (0 : Fin 1) k) := rfl

theorem visualRows_apply (feat : FVec Ideal ⟨2, ![2048, 4096]⟩ .f32) (Wv : FVec Ideal ⟨2, ![4096, 1024]⟩ .bf16)
    (bv : FVec Ideal ⟨2, ![1, 1024]⟩ .f32) (ρ : Fin 2048) (k : Fin 1024) :
    visualRows feat Wv bv (ix2 ρ k) = (∑ f : Fin 4096, feat (ix2 ρ f) * Wv (ix2 f k)) + bv (ix2 (0 : Fin 1) k) := rfl

theorem languageMap_apply (language : FVec Ideal ⟨4, ![32, 64, 20, 1024]⟩ .f32) (lengths : IVec ⟨2, ![32, 64]⟩ 32)
    (Wl : FVec Ideal ⟨2, ![1024, 1024]⟩ .f32) (bl : FVec Ideal ⟨1, ![1024]⟩ .f32) (b : Fin 32) (n : Fin 64) (k : Fin 1024) :
    languageMap language lengths Wl bl (ix3 b n k)
      = (∑ h : Fin 1024, Ideal.div (∑ p : Fin 20, language (ix4 b n p h)) (FloatOps.sitofp (F := Ideal) .f32 (lengths (ix2 b n)))
          * Wl (ix2 h k)) + bl (ix1 k) := rfl

theorem visualMap_apply (vision : FVec Ideal ⟨3, ![32, 64, 4096]⟩ .f32) (Wv : FVec Ideal ⟨2, ![4096, 1024]⟩ .f32)
    (bv : FVec Ideal ⟨1, ![1024]⟩ .f32) (b : Fin 32) (n : Fin 64) (k : Fin 1024) :
    visualMap vision Wv bv (ix3 b n k) = (∑ f : Fin 4096, vision (ix3 b n f) * Wv (ix2 f k)) + bv (ix1 k) := rfl

/-! ## The reshapes, read at an index -/

theorem flatTokens_apply (language : FVec Ideal ⟨4, ![32, 64, 20, 1024]⟩ .f32)
    (h : (⟨4, ![32, 64, 20, 1024]⟩ : Shape).ShapeCasts ⟨3, ![2048, 20, 1024]⟩) (b : Fin 32) (n : Fin 64) (p : Fin 20) (q : Fin 1024) :
    shapeCast ⟨3, ![2048, 20, 1024]⟩ language h (ix3 (row b n) p q) = language (ix4 b n p q) :=
  shapeCast_apply language h (ix3 (row b n) p q) (ix4 b n p q) (by
    rw [Shape.rowMajor_val_three, Shape.rowMajor_val_four]
    show ((b.val * 64 + n.val) * 20 + p.val) * 1024 + q.val = ((b.val * 64 + n.val) * 20 + p.val) * 1024 + q.val
    rfl)

theorem flatFeat_apply (vision : FVec Ideal ⟨3, ![32, 64, 4096]⟩ .f32)
    (h : (⟨3, ![32, 64, 4096]⟩ : Shape).ShapeCasts ⟨2, ![2048, 4096]⟩) (b : Fin 32) (n : Fin 64) (f : Fin 4096) :
    shapeCast ⟨2, ![2048, 4096]⟩ vision h (ix2 (row b n) f) = vision (ix3 b n f) :=
  shapeCast_apply vision h (ix2 (row b n) f) (ix3 b n f) (by
    rw [Shape.rowMajor_val_two, Shape.rowMajor_val_three]
    show (b.val * 64 + n.val) * 4096 + f.val = (b.val * 64 + n.val) * 4096 + f.val
    rfl)

theorem flatLengths_apply (lengths : IVec ⟨2, ![32, 64]⟩ 32)
    (h : (⟨2, ![32, 64]⟩ : Shape).ShapeCasts ⟨2, ![2048, 1]⟩) (b : Fin 32) (n : Fin 64) :
    shapeCast ⟨2, ![2048, 1]⟩ lengths h (ix2 (row b n) (0 : Fin 1)) = lengths (ix2 b n) :=
  shapeCast_apply lengths h (ix2 (row b n) (0 : Fin 1)) (ix2 b n) (by
    rw [Shape.rowMajor_val_two, Shape.rowMajor_val_two]
    show b.val * 64 + n.val = (b.val * 64 + n.val) * 1 + 0
    omega)

theorem biasAsRow_apply (bias : FVec Ideal ⟨1, ![1024]⟩ .f32)
    (h : (⟨1, ![1024]⟩ : Shape).ShapeCasts ⟨2, ![1, 1024]⟩) (k : Fin 1024) :
    shapeCast ⟨2, ![1, 1024]⟩ bias h (ix2 (0 : Fin 1) k) = bias (ix1 k) :=
  shapeCast_apply bias h (ix2 (0 : Fin 1) k) (ix1 k) (by
    rw [Shape.rowMajor_val_one, Shape.rowMajor_val_two]
    show k.val = 0 * 1024 + k.val
    omega)

theorem unflatten_apply (rows : FVec Ideal ⟨2, ![2048, 1024]⟩ .f32)
    (h : (⟨2, ![2048, 1024]⟩ : Shape).ShapeCasts ⟨3, ![32, 64, 1024]⟩) (b : Fin 32) (n : Fin 64) (k : Fin 1024) :
    shapeCast ⟨3, ![32, 64, 1024]⟩ rows h (ix3 b n k) = rows (ix2 (row b n) k) :=
  shapeCast_apply rows h (ix3 b n k) (ix2 (row b n) k) (by
    rw [Shape.rowMajor_val_two, Shape.rowMajor_val_three]
    show (b.val * 64 + n.val) * 1024 + k.val = (b.val * 64 + n.val) * 1024 + k.val
    rfl)

/-! ## The two results -/

/-- The language rows computed from the flattened tokens, the converted length column, the re-formatted weights
    and the bias row, reshaped back to the regions, are the language map of the original arrays. -/
theorem languageRows_unflatten (language : FVec Ideal ⟨4, ![32, 64, 20, 1024]⟩ .f32) (lengths : IVec ⟨2, ![32, 64]⟩ 32)
    (Wl : FVec Ideal ⟨2, ![1024, 1024]⟩ .f32) (bl : FVec Ideal ⟨1, ![1024]⟩ .f32)
    (h1 : (⟨4, ![32, 64, 20, 1024]⟩ : Shape).ShapeCasts ⟨3, ![2048, 20, 1024]⟩)
    (h2 : (⟨2, ![32, 64]⟩ : Shape).ShapeCasts ⟨2, ![2048, 1]⟩)
    (h6 : (⟨1, ![1024]⟩ : Shape).ShapeCasts ⟨2, ![1, 1024]⟩)
    (h9 : (⟨2, ![2048, 1024]⟩ : Shape).ShapeCasts ⟨3, ![32, 64, 1024]⟩)
    (hb : FTy.bf16.bits < FTy.f32.bits) :
    shapeCast ⟨3, ![32, 64, 1024]⟩
        (languageRows (shapeCast ⟨3, ![2048, 20, 1024]⟩ language h1)
          (sitofp (F := Ideal) .f32 (shapeCast ⟨2, ![2048, 1]⟩ lengths h2))
          (truncf .bf16 Wl hb) (shapeCast ⟨2, ![1, 1024]⟩ bl h6)) h9
      = languageMap language lengths Wl bl := by
  funext i
  obtain ⟨b, n, k, rfl⟩ : ∃ (b : Fin 32) (n : Fin 64) (k : Fin 1024), i = ix3 b n k := ⟨i 0, i 1, i 2, eq_ix3 i⟩
  rw [unflatten_apply, languageRows_apply, languageMap_apply, biasAsRow_apply, sitofp_apply, flatLengths_apply]
  refine congrArg (· + bl (ix1 k)) (Finset.sum_congr rfl fun h _ => ?_)
  rw [truncf_apply]
  refine congrArg (fun s => Ideal.div s (FloatOps.sitofp (F := Ideal) .f32 (lengths (ix2 b n))) * Wl (ix2 h k))
    (Finset.sum_congr rfl fun p _ => ?_)
  exact flatTokens_apply language h1 b n p h

/-- The visual rows computed from the flattened features, the re-formatted weights and the bias row, reshaped
    back to the regions, are the visual map of the original arrays. -/
theorem visualRows_unflatten (vision : FVec Ideal ⟨3, ![32, 64, 4096]⟩ .f32)
    (Wv : FVec Ideal ⟨2, ![4096, 1024]⟩ .f32) (bv : FVec Ideal ⟨1, ![1024]⟩ .f32)
    (h0 : (⟨3, ![32, 64, 4096]⟩ : Shape).ShapeCasts ⟨2, ![2048, 4096]⟩)
    (h4 : (⟨1, ![1024]⟩ : Shape).ShapeCasts ⟨2, ![1, 1024]⟩)
    (h9 : (⟨2, ![2048, 1024]⟩ : Shape).ShapeCasts ⟨3, ![32, 64, 1024]⟩)
    (hb : FTy.bf16.bits < FTy.f32.bits) :
    shapeCast ⟨3, ![32, 64, 1024]⟩
        (visualRows (shapeCast ⟨2, ![2048, 4096]⟩ vision h0) (truncf .bf16 Wv hb) (shapeCast ⟨2, ![1, 1024]⟩ bv h4)) h9
      = visualMap vision Wv bv := by
  funext i
  obtain ⟨b, n, k, rfl⟩ : ∃ (b : Fin 32) (n : Fin 64) (k : Fin 1024), i = ix3 b n k := ⟨i 0, i 1, i 2, eq_ix3 i⟩
  rw [unflatten_apply, visualRows_apply, visualMap_apply, biasAsRow_apply]
  refine congrArg (· + bv (ix1 k)) (Finset.sum_congr rfl fun f _ => ?_)
  rw [truncf_apply, flatFeat_apply]

end Cert.RegionPool

end
-- ==== Proof.KernelArr.lean ====
/-
  From the kernel's tiles to its two whole output arrays.

  The grid has 32 points; point t works on rows 64·t … 64·t + 63 of the flattened arrays: it is handed those rows
  of the tokens, of the features and of the length column, and the whole of both weight matrices and both bias
  rows (their block index is 0 at every point), and it writes back rows 64·t … 64·t + 63 of both outputs. Reading
  each handed block through its window, entry (r, k) of the tile point t stores is entry (64·t + r, k) of the
  flattened-rows function of the arrays as the call finds them; and the 32 tiles cover every row (row i lies in
  tile i / 64). So after the call each output array IS that function.
-/
import proofs.«105562_j9208409882645_1_alg».proof.Proof.Gen.KernelIdeal.Frame
import proofs.«105562_j9208409882645_1_alg».proof.Proof.KernelPay
import proofs.«105562_j9208409882645_1_alg».proof.Proof.Flatten
import Idealize.ShloMosaic.Lib.Pipeline.Value

set_option maxRecDepth 16384

noncomputable section

namespace Cert.KernelIdeal.Arr

open Cert.KernelIdeal Cert.KernelIdeal.Gen Cert.RegionPool
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-! ## Which block each window hands a point: decided over the 32 points -/

theorem tokensIdx : ∀ t : Fin cfg0.N, win0_0.index t (0 : Fin 3) = t.val ∧ win0_0.index t (1 : Fin 3) = 0 ∧ win0_0.index t (2 : Fin 3) = 0 :=
  (by decide +kernel : ∀ t : Fin grid0.N, _)
theorem featIdx : ∀ t : Fin cfg0.N, win0_1.index t (0 : Fin 2) = t.val ∧ win0_1.index t (1 : Fin 2) = 0 :=
  (by decide +kernel : ∀ t : Fin grid0.N, _)
theorem lenIdx : ∀ t : Fin cfg0.N, win0_2.index t (0 : Fin 2) = t.val ∧ win0_2.index t (1 : Fin 2) = 0 :=
  (by decide +kernel : ∀ t : Fin grid0.N, _)
theorem wvIdx : ∀ t : Fin cfg0.N, win0_3.index t (0 : Fin 2) = 0 ∧ win0_3.index t (1 : Fin 2) = 0 :=
  (by decide +kernel : ∀ t : Fin grid0.N, _)
theorem wlIdx : ∀ t : Fin cfg0.N, win0_4.index t (0 : Fin 2) = 0 ∧ win0_4.index t (1 : Fin 2) = 0 :=
  (by decide +kernel : ∀ t : Fin grid0.N, _)
theorem bvIdx : ∀ t : Fin cfg0.N, win0_5.index t (0 : Fin 2) = 0 ∧ win0_5.index t (1 : Fin 2) = 0 :=
  (by decide +kernel : ∀ t : Fin grid0.N, _)
theorem blIdx : ∀ t : Fin cfg0.N, win0_6.index t (0 : Fin 2) = 0 ∧ win0_6.index t (1 : Fin 2) = 0 :=
  (by decide +kernel : ∀ t : Fin grid0.N, _)
theorem langOutIdx : ∀ t : Fin cfg0.N, win0_7.index t (0 : Fin 2) = t.val ∧ win0_7.index t (1 : Fin 2) = 0 :=
  (by decide +kernel : ∀ t : Fin grid0.N, _)
theorem visOutIdx : ∀ t : Fin cfg0.N, win0_8.index t (0 : Fin 2) = t.val ∧ win0_8.index t (1 : Fin 2) = 0 :=
  (by decide +kernel : ∀ t : Fin grid0.N, _)

/-- Row r of point t's tile is row 64·t + r of the flattened arrays. -/
def tileRow (t : Fin cfg0.N) (r : Fin 64) : Fin 2048 :=
  ⟨t.val * 64 + r.val, by have ht : t.val < 32 := lt_of_lt_of_eq t.isLt N_0; have := r.isLt; omega⟩

/-! ## The handed blocks, read through their windows -/

theorem tokensBlk (c : Dev nD) (t : Fin cfg0.N) (r : Fin 64) (p : Fin 20) (h : Fin 1024) :
    (iblk m c 0 t : FVec Ideal S64x20x1024 .f32) (ix3 r p h) = (V m c main_v0 : FVec Ideal S2048x20x1024 .f32) (ix3 (tileRow t r) p h) := by
  obtain ⟨e0, e1, e2⟩ := tokensIdx t
  show V m c main_v0 (((cfg0.win 0).blk t).view.emb (ix3 r p h)) = V m c main_v0 (ix3 (tileRow t r) p h)
  refine congrArg _ (funext fun a => Fin.ext ?_)
  match a with
  | ⟨0, _⟩ => show win0_0.index t (0 : Fin 3) * 64 + 1 * r.val = t.val * 64 + r.val; omega
  | ⟨1, _⟩ => show win0_0.index t (1 : Fin 3) * 20 + 1 * p.val = p.val; omega
  | ⟨2, _⟩ => show win0_0.index t (2 : Fin 3) * 1024 + 1 * h.val = h.val; omega

theorem featBlk (c : Dev nD) (t : Fin cfg0.N) (r : Fin 64) (f : Fin 4096) :
    (iblk m c 1 t : FVec Ideal S64x4096 .f32) (ix2 r f) = (V m c main_v1 : FVec Ideal S2048x4096 .f32) (ix2 (tileRow t r) f) := by
  obtain ⟨e0, e1⟩ := featIdx t
  show V m c main_v1 (((cfg0.win 1).blk t).view.emb (ix2 r f)) = V m c main_v1 (ix2 (tileRow t r) f)
  refine congrArg _ (funext fun a => Fin.ext ?_)
  match a with
  | ⟨0, _⟩ => show win0_1.index t (0 : Fin 2) * 64 + 1 * r.val = t.val * 64 + r.val; omega
  | ⟨1, _⟩ => show win0_1.index t (1 : Fin 2) * 4096 + 1 * f.val = f.val; omega

theorem lenBlk (c : Dev nD) (t : Fin cfg0.N) (r : Fin 64) :
    (iblk m c 2 t : FVec Ideal S64x1 .f32) (ix2 r (0 : Fin 1)) = (V m c main_v3 : FVec Ideal S2048x1 .f32) (ix2 (tileRow t r) (0 : Fin 1)) := by
  obtain ⟨e0, e1⟩ := lenIdx t
  show V m c main_v3 (((cfg0.win 2).blk t).view.emb (ix2 r (0 : Fin 1))) = V m c main_v3 (ix2 (tileRow t r) (0 : Fin 1))
  refine congrArg _ (funext fun a => Fin.ext ?_)
  match a with
  | ⟨0, _⟩ => show win0_2.index t (0 : Fin 2) * 64 + 1 * r.val = t.val * 64 + r.val; omega
  | ⟨1, _⟩ => show win0_2.index t (1 : Fin 2) * 1 + 1 * 0 = 0; omega

theorem wvBlk (c : Dev nD) (t : Fin cfg0.N) (f : Fin 4096) (k : Fin 1024) :
    (iblk m c 3 t : FVec Ideal S4096x1024 .bf16) (ix2 f k) = (V m c main_v4 : FVec Ideal S4096x1024 .bf16) (ix2 f k) := by
  obtain ⟨e0, e1⟩ := wvIdx t
  show V m c main_v4 (((cfg0.win 3).blk t).view.emb (ix2 f k)) = V m c main_v4 (ix2 f k)
  refine congrArg _ (funext fun a => Fin.ext ?_)
  match a with
  | ⟨0, _⟩ => show win0_3.index t (0 : Fin 2) * 4096 + 1 * f.val = f.val; omega
  | ⟨1, _⟩ => show win0_3.index t (1 : Fin 2) * 1024 + 1 * k.val = k.val; omega

theorem wlBlk (c : Dev nD) (t : Fin cfg0.N) (h : Fin 1024) (k : Fin 1024) :
    (iblk m c 4 t : FVec Ideal S1024x1024 .bf16) (ix2 h k) = (V m c main_v5 : FVec Ideal S1024x1024 .bf16) (ix2 h k) := by
  obtain ⟨e0, e1⟩ := wlIdx t
  show V m c main_v5 (((cfg0.win 4).blk t).view.emb (ix2 h k)) = V m c main_v5 (ix2 h k)
  refine congrArg _ (funext fun a => Fin.ext ?_)
  match a with
  | ⟨0, _⟩ => show win0_4.index t (0 : Fin 2) * 1024 + 1 * h.val = h.val; omega
  | ⟨1, _⟩ => show win0_4.index t (1 : Fin 2) * 1024 + 1 * k.val = k.val; omega

theorem bvBlk (c : Dev nD) (t : Fin cfg0.N) (k : Fin 1024) :
    (iblk m c 5 t : FVec Ideal S1x1024 .f32) (ix2 (0 : Fin 1) k) = (V m c main_v6 : FVec Ideal S1x1024 .f32) (ix2 (0 : Fin 1) k) := by
  obtain ⟨e0, e1⟩ := bvIdx t
  show V m c main_v6 (((cfg0.win 5).blk t).view.emb (ix2 (0 : Fin 1) k)) = V m c main_v6 (ix2 (0 : Fin 1) k)
  refine congrArg _ (funext fun a => Fin.ext ?_)
  match a with
  | ⟨0, _⟩ => show win0_5.index t (0 : Fin 2) * 1 + 1 * 0 = 0; omega
  | ⟨1, _⟩ => show win0_5.index t (1 : Fin 2) * 1024 + 1 * k.val = k.val; omega

theorem blBlk (c : Dev nD) (t : Fin cfg0.N) (k : Fin 1024) :
    (iblk m c 6 t : FVec Ideal S1x1024 .f32) (ix2 (0 : Fin 1) k) = (V m c main_v7 : FVec Ideal S1x1024 .f32) (ix2 (0 : Fin 1) k) := by
  obtain ⟨e0, e1⟩ := blIdx t
  show V m c main_v7 (((cfg0.win 6).blk t).view.emb (ix2 (0 : Fin 1) k)) = V m c main_v7 (ix2 (0 : Fin 1) k)
  refine congrArg _ (funext fun a => Fin.ext ?_)
  match a with
  | ⟨0, _⟩ => show win0_6.index t (0 : Fin 2) * 1 + 1 * 0 = 0; omega
  | ⟨1, _⟩ => show win0_6.index t (1 : Fin 2) * 1024 + 1 * k.val = k.val; omega

/-! ## What each point writes back -/

/-- The language rows of the arrays as the call finds them. -/
abbrev langArr (c : Dev nD) : FVec Ideal S2048x1024 .f32 :=
  languageRows (V m c main_v0) (V m c main_v3) (V m c main_v5) (V m c main_v7)

/-- The visual rows of the arrays as the call finds them. -/
abbrev visArr (c : Dev nD) : FVec Ideal S2048x1024 .f32 :=
  visualRows (V m c main_v1) (V m c main_v4) (V m c main_v6)

/-- Point t writes back rows 64·t … 64·t + 63 of the language rows. -/
theorem flushedLang_eq (c : Dev nD) (t : Fin cfg0.N) :
    (dats m 0 c).flushed 7 t = ((cfg0.win 7).blk t).view.read (Elt Ideal) (langArr m c) := by
  show (cfg0.win 7).cut (grid0.coords t) ((dats m 0 c).after 7 t) = _
  rw [after0_7]
  unfold out0_7
  rw [View.canon_unit_zero hz2]
  simp only [View.ld_unit_zero (S := S64x20x1024) hz3, View.ld_unit_zero (S := S64x1) hz2,
    View.ld_unit_zero (S := S1024x1024) hz2, View.ld_unit_zero (S := S1x1024) hz2]
  funext j
  obtain ⟨r, k, rfl⟩ : ∃ (r : Fin 64) (k : Fin 1024), j = ix2 r k := ⟨j 0, j 1, eq_ix2 j⟩
  obtain ⟨e0, e1⟩ := langOutIdx t
  have hemb : ((cfg0.win 7).blk t).view.emb (ix2 r k) = ix2 (tileRow t r) k := funext fun a => Fin.ext (by
    match a with
    | ⟨0, _⟩ => show win0_7.index t (0 : Fin 2) * 64 + 1 * r.val = t.val * 64 + r.val; omega
    | ⟨1, _⟩ => show win0_7.index t (1 : Fin 2) * 1024 + 1 * k.val = k.val; omega)
  show k0_pay1 (iblk m c 0 t) (iblk m c 2 t) (iblk m c 4 t) (iblk m c 6 t) (ix2 r k)
    = langArr m c (((cfg0.win 7).blk t).view.emb (ix2 r k))
  rw [hemb]
  refine (Pay.langTile_apply (iblk m c 0 t) (iblk m c 2 t) (iblk m c 4 t) (iblk m c 6 t) r k).trans ?_
  refine ((languageRows_apply (V m c main_v0) (V m c main_v3) (V m c main_v5) (V m c main_v7) (tileRow t r) k).trans ?_).symm
  rw [blBlk m c t k, lenBlk m c t r]
  refine congrArg (· + (V m c main_v7 : FVec Ideal S1x1024 .f32) (ix2 (0 : Fin 1) k)) (Finset.sum_congr rfl fun h _ => ?_)
  rw [wlBlk m c t h k]
  exact congrArg (fun s => Ideal.div s ((V m c main_v3 : FVec Ideal S2048x1 .f32) (ix2 (tileRow t r) (0 : Fin 1)))
      * (V m c main_v5 : FVec Ideal S1024x1024 .bf16) (ix2 h k))
    (Finset.sum_congr rfl fun p _ => (tokensBlk m c t r p h).symm)

/-- Point t writes back rows 64·t … 64·t + 63 of the visual rows. -/
theorem flushedVis_eq (c : Dev nD) (t : Fin cfg0.N) :
    (dats m 0 c).flushed 8 t = ((cfg0.win 8).blk t).view.read (Elt Ideal) (visArr m c) := by
  show (cfg0.win 8).cut (grid0.coords t) ((dats m 0 c).after 8 t) = _
  rw [after0_8]
  unfold out0_8
  rw [View.canon_unit_zero hz2]
  simp only [View.ld_unit_zero (S := S64x4096) hz2, View.ld_unit_zero (S := S4096x1024) hz2,
    View.ld_unit_zero (S := S1x1024) hz2]
  funext j
  obtain ⟨r, k, rfl⟩ : ∃ (r : Fin 64) (k : Fin 1024), j = ix2 r k := ⟨j 0, j 1, eq_ix2 j⟩
  obtain ⟨e0, e1⟩ := visOutIdx t
  have hemb : ((cfg0.win 8).blk t).view.emb (ix2 r k) = ix2 (tileRow t r) k := funext fun a => Fin.ext (by
    match a with
    | ⟨0, _⟩ => show win0_8.index t (0 : Fin 2) * 64 + 1 * r.val = t.val * 64 + r.val; omega
    | ⟨1, _⟩ => show win0_8.index t (1 : Fin 2) * 1024 + 1 * k.val = k.val; omega)
  show k0_pay2 (iblk m c 1 t) (iblk m c 3 t) (iblk m c 5 t) (ix2 r k)
    = visArr m c (((cfg0.win 8).blk t).view.emb (ix2 r k))
  rw [hemb]
  refine (Pay.visTile_apply (iblk m c 1 t) (iblk m c 3 t) (iblk m c 5 t) r k).trans ?_
  refine ((visualRows_apply (V m c main_v1) (V m c main_v4) (V m c main_v6) (tileRow t r) k).trans ?_).symm
  rw [bvBlk m c t k]
  refine congrArg (· + (V m c main_v6 : FVec Ideal S1x1024 .f32) (ix2 (0 : Fin 1) k)) (Finset.sum_congr rfl fun f _ => ?_)
  rw [wvBlk m c t f k, featBlk m c t r f]

/-! ## The tiles cover every row -/

theorem mem_langBlk (t : Fin cfg0.N) (i : S2048x1024.Idx) :
    i ∈ ((cfg0.win 7).blk t).view.set ↔ ∀ a : Fin 2, win0_7.index t a * S64x1024.size a ≤ (i a).val ∧ (i a).val < win0_7.index t a * S64x1024.size a + S64x1024.size a := by
  show i ∈ ((View.whole main_v8_0).slice (win0_7.rect t)).set ↔ _
  rw [View.set_slice_whole, Rect.mem_set_unit]
  exact Iff.rfl

theorem mem_visBlk (t : Fin cfg0.N) (i : S2048x1024.Idx) :
    i ∈ ((cfg0.win 8).blk t).view.set ↔ ∀ a : Fin 2, win0_8.index t a * S64x1024.size a ≤ (i a).val ∧ (i a).val < win0_8.index t a * S64x1024.size a + S64x1024.size a := by
  show i ∈ ((View.whole main_v8_1).slice (win0_8.rect t)).set ↔ _
  rw [View.set_slice_whole, Rect.mem_set_unit]
  exact Iff.rfl

/-- The point whose tile holds row i. -/
def tileOf (i : S2048x1024.Idx) : Fin cfg0.N :=
  ⟨(i 0).val / 64, by have h : (i 0).val < 2048 := (i 0).isLt; exact lt_of_lt_of_eq (by omega : (i 0).val / 64 < 32) N_0.symm⟩

theorem langCover (i : S2048x1024.Idx) : ∃ t : Fin cfg0.N, (cfg0.win 7).flush t = true ∧ i ∈ ((cfg0.win 7).blk t).view.set := by
  have hi1 : (i 1).val < 1024 := (i 1).isLt
  refine ⟨tileOf i, flush0_7 (tileOf i), ?_⟩
  rw [mem_langBlk]
  obtain ⟨e0, e1⟩ := langOutIdx (tileOf i)
  have ev : (tileOf i).val = (i 0).val / 64 := rfl
  intro a
  match a with
  | ⟨0, _⟩ => show win0_7.index (tileOf i) (0 : Fin 2) * 64 ≤ (i 0).val ∧ (i 0).val < win0_7.index (tileOf i) (0 : Fin 2) * 64 + 64; omega
  | ⟨1, _⟩ => show win0_7.index (tileOf i) (1 : Fin 2) * 1024 ≤ (i 1).val ∧ (i 1).val < win0_7.index (tileOf i) (1 : Fin 2) * 1024 + 1024; omega

theorem visCover (i : S2048x1024.Idx) : ∃ t : Fin cfg0.N, (cfg0.win 8).flush t = true ∧ i ∈ ((cfg0.win 8).blk t).view.set := by
  have hi1 : (i 1).val < 1024 := (i 1).isLt
  refine ⟨tileOf i, flush0_8 (tileOf i), ?_⟩
  rw [mem_visBlk]
  obtain ⟨e0, e1⟩ := visOutIdx (tileOf i)
  have ev : (tileOf i).val = (i 0).val / 64 := rfl
  intro a
  match a with
  | ⟨0, _⟩ => show win0_8.index (tileOf i) (0 : Fin 2) * 64 ≤ (i 0).val ∧ (i 0).val < win0_8.index (tileOf i) (0 : Fin 2) * 64 + 64; omega
  | ⟨1, _⟩ => show win0_8.index (tileOf i) (1 : Fin 2) * 1024 ≤ (i 1).val ∧ (i 1).val < win0_8.index (tileOf i) (1 : Fin 2) * 1024 + 1024; omega

/-! ## The two output arrays after the call -/

theorem finalLang (c : Dev nD) : (dats m 0 c).arrAt 7 cfg0.N = langArr m c :=
  (dats m 0 c).arrAt_eq_of_cover 7 (langArr m c) (fun t _ => flushedLang_eq m c t) langCover

theorem finalVis (c : Dev nD) : (dats m 0 c).arrAt 8 cfg0.N = visArr m c :=
  (dats m 0 c).arrAt_eq_of_cover 8 (visArr m c) (fun t _ => flushedVis_eq m c t) visCover

end Cert.KernelIdeal.Arr

end
-- ==== Proof.KernelRun.lean ====
/-
  The kernel's whole program: its two results as the specification's functions of the arguments.

  Before the call the program flattens the regions of the tokens, the features and the lengths (converting the
  lengths to floats), re-formats the two weight matrices, and gives each bias a unit axis in front; the call
  leaves the flattened-rows functions of those arrays in its two outputs; after it the program reshapes both back
  to [32, 64, 1024]. Composed: the two results are the language map and the visual map of the arguments.
-/
import proofs.«105562_j9208409882645_1_alg».proof.Proof.KernelArr
import Idealize.ShloMosaic.Lib.StableHlo.Run

set_option maxRecDepth 16384

noncomputable section

namespace Cert.KernelIdeal.Whole

open Cert.KernelIdeal Cert.KernelIdeal.Gen Cert.RegionPool
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays as the call finds them -/

theorem V_tokens (c : Dev nD) : (V m c main_v0 : FVec Ideal S2048x20x1024 .f32)
    = shapeCast S2048x20x1024 (m ((c : Thread nD τ).loc main_arg1)) shapeCasts_S32x64x20x1024_S2048x20x1024 := by
  show StableHlo.after hostOps0 (fun b => m (c, b)) (Proc.devRef .tc main_v0) = _
  after_results
  rfl

theorem V_feat (c : Dev nD) : (V m c main_v1 : FVec Ideal S2048x4096 .f32)
    = shapeCast S2048x4096 (m ((c : Thread nD τ).loc main_arg0)) shapeCasts_S32x64x4096_S2048x4096 := by
  show StableHlo.after hostOps0 (fun b => m (c, b)) (Proc.devRef .tc main_v1) = _
  after_results
  rfl

theorem V_len (c : Dev nD) : (V m c main_v3 : FVec Ideal S2048x1 .f32)
    = sitofp (F := Ideal) .f32 (shapeCast S2048x1 (m ((c : Thread nD τ).loc main_arg2)) shapeCasts_S32x64_S2048x1) := by
  show StableHlo.after hostOps0 (fun b => m (c, b)) (Proc.devRef .tc main_v3) = _
  after_results
  rfl

theorem V_wv (c : Dev nD) : (V m c main_v4 : FVec Ideal S4096x1024 .bf16)
    = (truncf (F := Ideal) .bf16 (m ((c : Thread nD τ).loc main_arg3) : FVec Ideal S4096x1024 .f32) bitsLt_bf16_f32 : FVec Ideal S4096x1024 .bf16) := by
  show StableHlo.after hostOps0 (fun b => m (c, b)) (Proc.devRef .tc main_v4) = _
  after_results

theorem V_wl (c : Dev nD) : (V m c main_v5 : FVec Ideal S1024x1024 .bf16)
    = (truncf (F := Ideal) .bf16 (m ((c : Thread nD τ).loc main_arg5) : FVec Ideal S1024x1024 .f32) bitsLt_bf16_f32 : FVec Ideal S1024x1024 .bf16) := by
  show StableHlo.after hostOps0 (fun b => m (c, b)) (Proc.devRef .tc main_v5) = _
  after_results

theorem V_bv (c : Dev nD) : (V m c main_v6 : FVec Ideal S1x1024 .f32)
    = shapeCast S1x1024 (m ((c : Thread nD τ).loc main_arg4)) shapeCasts_S1024_S1x1024 := by
  show StableHlo.after hostOps0 (fun b => m (c, b)) (Proc.devRef .tc main_v6) = _
  after_results
  rfl

theorem V_bl (c : Dev nD) : (V m c main_v7 : FVec Ideal S1x1024 .f32)
    = shapeCast S1x1024 (m ((c : Thread nD τ).loc main_arg6)) shapeCasts_S1024_S1x1024 := by
  show StableHlo.after hostOps0 (fun b => m (c, b)) (Proc.devRef .tc main_v7) = _
  after_results
  rfl

/-! ## The two results after the program's last lines -/

/-- The first result is the language output array of the call, reshaped to the regions. -/
theorem tailLang (c : Dev nD) :
    (Pipeline.afterTail₀ cfgs (dats m) 0 (V0 m) [hostOps1] c main_v9 : FVec Ideal S32x64x1024 .f32)
      = shapeCast S32x64x1024 (Arr.langArr m c) shapeCasts_S2048x1024_S32x64x1024 := by
  unfold Pipeline.afterTail₀
  show StableHlo.after hostOps1 _ (Proc.devRef .tc main_v9) = _
  after_results
  exact congrArg (fun A : FVec Ideal S2048x1024 .f32 => shapeCast S32x64x1024 A shapeCasts_S2048x1024_S32x64x1024)
    ((Pipeline.withArrays_arr spec0 launch0.win.arr_inj c _ _ 7).trans (Arr.finalLang m c))

/-- The second result is the visual output array of the call, reshaped to the regions. -/
theorem tailVis (c : Dev nD) :
    (Pipeline.afterTail₀ cfgs (dats m) 0 (V0 m) [hostOps1] c main_v10 : FVec Ideal S32x64x1024 .f32)
      = shapeCast S32x64x1024 (Arr.visArr m c) shapeCasts_S2048x1024_S32x64x1024 := by
  unfold Pipeline.afterTail₀
  show StableHlo.after hostOps1 _ (Proc.devRef .tc main_v10) = _
  after_results
  exact congrArg (fun A : FVec Ideal S2048x1024 .f32 => shapeCast S32x64x1024 A shapeCasts_S2048x1024_S32x64x1024)
    ((Pipeline.withArrays_arr spec0 launch0.win.arr_inj c _ _ 8).trans (Arr.finalVis m c))

/-- The first result is the language map of the arguments. -/
theorem langResult (c : Dev nD) :
    (Pipeline.afterTail₀ cfgs (dats m) 0 (V0 m) [hostOps1] c main_v9 : FVec Ideal S32x64x1024 .f32)
      = languageMap (m ((c : Thread nD τ).loc main_arg1)) (m ((c : Thread nD τ).loc main_arg2))
          (m ((c : Thread nD τ).loc main_arg5)) (m ((c : Thread nD τ).loc main_arg6)) := by
  rw [tailLang]
  unfold Arr.langArr
  rw [V_tokens, V_len, V_wl, V_bl]
  exact languageRows_unflatten _ _ _ _ _ _ _ _ _

/-- The second result is the visual map of the arguments. -/
theorem visResult (c : Dev nD) :
    (Pipeline.afterTail₀ cfgs (dats m) 0 (V0 m) [hostOps1] c main_v10 : FVec Ideal S32x64x1024 .f32)
      = visualMap (m ((c : Thread nD τ).loc main_arg0)) (m ((c : Thread nD τ).loc main_arg3))
          (m ((c : Thread nD τ).loc main_arg4)) := by
  rw [tailVis]
  unfold Arr.visArr
  rw [V_feat, V_wv, V_bv]
  exact visualRows_unflatten _ _ _ _ _ _ _

/-! ## The run -/

/-- Every weakly fair execution of the kernel's program terminates with its two results at the language map and
    the visual map of the arguments, and the arguments unchanged. -/
theorem run : θ_run defs (onTc (τ := τ) (main (F := Ideal))) ⟨m, fun _ => 0, ρ⟩ fun r => ∀ c : Dev nD,
      r.2.mem ((c.tc : Thread nD τ).loc main_v9)
        = languageMap (m ((c : Thread nD τ).loc main_arg1)) (m ((c : Thread nD τ).loc main_arg2))
            (m ((c : Thread nD τ).loc main_arg5)) (m ((c : Thread nD τ).loc main_arg6))
      ∧ r.2.mem ((c.tc : Thread nD τ).loc main_v10)
        = visualMap (m ((c : Thread nD τ).loc main_arg0)) (m ((c : Thread nD τ).loc main_arg3))
            (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨((h c).2 main_v9 (Pipeline.mem_restRefs_of main_v9 (by decide) (by decide))).trans (langResult m c),
       ((h c).2 main_v10 (Pipeline.mem_restRefs_of main_v10 (by decide) (by decide))).trans (visResult m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c),
       ((h c).2 main_arg5 (Pipeline.mem_restRefs_of main_arg5 (by decide) (by decide))).trans (W_main_arg5 m (dats m) c),
       ((h c).2 main_arg6 (Pipeline.mem_restRefs_of main_arg6 (by decide) (by decide))).trans (W_main_arg6 m (dats m) c)⟩)
    (run_main m ρ)

end Cert.KernelIdeal.Whole

end
-- ==== Proof.lean ====
/-
  A fused "average the phrase tokens, then project" kernel against its plain array reference, over the extended reals.

  For each of 32 × 64 regions the programs form two vectors of length 1024:

    languageMap (b, n, k) = (Σ_h  (Σ_p language (b, n, p, h)) / length (b, n)  ·  Wl (h, k)) + bl k
    visualMap   (b, n, k) = (Σ_f  vision (b, n, f) · Wv (f, k)) + bv k

  The reference computes them with whole-array operations (a sum over the token axis, a division by the broadcast
  lengths, two contractions, two broadcast biases). The kernel flattens the regions to 2048 rows, walks them in 32
  tiles of 64 rows, and in each tile sums the tokens, divides by the length column, changes the number format of the
  quotient and of the weights (no change of value on exact numbers), multiplies into a zero accumulator and adds the
  bias row; the two [2048, 1024] outputs are reshaped back to the regions.

  Both are therefore the same nested sums of the same terms, with the same total division by the same (possibly
  zero) length: no distributive law, no cancellation and no reordering beyond the commutative monoid of the extended
  reals is needed, so the equality holds at every input and the finiteness precondition is never opened.

  The pieces: Proof/Spec.lean (the two functions), Proof/RefSide.lean (the reference's results are they),
  Proof/KernelPay.lean (one entry of a stored tile), Proof/KernelArr.lean (the tiles cover the output arrays),
  Proof/Flatten.lean (flattening and un-flattening the regions), Proof/KernelRun.lean (the kernel's program ends
  with both results at the two functions). The kernel's idealization rewrote nothing, so there is nothing to
  preserve; each program's frame is its run with the results dropped.
-/
import proofs.«105562_j9208409882645_1_alg».proof.Defs
import proofs.«105562_j9208409882645_1_alg».proof.Proof.Gen.Kernel
import proofs.«105562_j9208409882645_1_alg».proof.Proof.Gen.Kernel.Skeleton
import proofs.«105562_j9208409882645_1_alg».proof.Proof.Gen.Kernel.Launch
import proofs.«105562_j9208409882645_1_alg».proof.Proof.Gen.Kernel.Points
import proofs.«105562_j9208409882645_1_alg».proof.Proof.Gen.Kernel.Frame
import proofs.«105562_j9208409882645_1_alg».proof.Proof.Gen.KernelIdeal
import proofs.«105562_j9208409882645_1_alg».proof.Proof.Gen.KernelIdeal.Skeleton
import proofs.«105562_j9208409882645_1_alg».proof.Proof.Gen.KernelIdeal.Launch
import proofs.«105562_j9208409882645_1_alg».proof.Proof.Gen.KernelIdeal.Points
import proofs.«105562_j9208409882645_1_alg».proof.Proof.Gen.KernelIdeal.Frame
import proofs.«105562_j9208409882645_1_alg».proof.Proof.Gen.ReferenceIdeal
import proofs.«105562_j9208409882645_1_alg».proof.Proof.Gen.ReferenceIdeal.Run
import proofs.«105562_j9208409882645_1_alg».proof.Proof.Gen.ReferenceIdeal.Read
import proofs.«105562_j9208409882645_1_alg».proof.Proof.Gen.Pre_finite_inputs
import proofs.«105562_j9208409882645_1_alg».proof.Proof.RefSide
import proofs.«105562_j9208409882645_1_alg».proof.Proof.KernelRun
import Idealize.ShloMosaic.Adequacy
import Idealize.ShloMosaic.Init

noncomputable section

namespace Cert.Proof

open Idealize.ShloMosaic Idealize.ShloMosaic.TcCoe Idealize.SL.Sem Cert.RegionPool

/-- The kernel as printed terminates, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the seven arguments both programs end with the language map and the visual map of
    those arguments in their two results. -/
theorem algebraic : Cert.algebraic_KernelIdeal_ReferenceIdeal := by
  intro m ρ m' ρ' _ hagree
  refine ⟨fun c => languageMap (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg5))
        (m ((c : Thread Cert.KernelIdeal.nD Cert.KernelIdeal.τ).loc Cert.KernelIdeal.main_arg6)),
      fun c => visualMap (m ((c : Thread Cert.KernelIdeal.nD Cert.KernelIdeal.τ).loc Cert.KernelIdeal.main_arg0))
        (m ((c : Thread Cert.KernelIdeal.nD Cert.KernelIdeal.τ).loc Cert.KernelIdeal.main_arg3))
        (m ((c : Thread Cert.KernelIdeal.nD Cert.KernelIdeal.τ).loc Cert.KernelIdeal.main_arg4)),
      Cert.KernelIdeal.Whole.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2⟩
  · refine (Cert.ReferenceIdeal.Read.val_main_v12_eq _ _ _ _).trans ?_
    rw [Cert.ReferenceIdeal.RefValue.language_eq, a1, a2, a5, a6]
  · refine (Cert.ReferenceIdeal.Read.val_main_v8_eq _ _ _).trans ?_
    rw [Cert.ReferenceIdeal.RefValue.visual_eq, a0, a3, a4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
